-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_v13 : IVec S_ 1) (main_v15 : IVec S1600000 32) (main_v16 : IVec S1600000 32) : IVec S_ 1 :=
  let main_v17 : IVec S1600000 1 := cmpi .sge main_v15 main_v16
  let main_v18 : IVec S1x1600000 32 := (extractStridedSlice S1x1600000 ![0, 0] · slices_S2x1600000_S1x1600000_0_0) main_arg1
  let main_v19 : IVec S1600000 32 := shapeCast S1600000 main_v18 shapeCasts_S1x1600000_S1600000
  let main_c_5 : IVec S_ 32 := constantI S_ 32 100000#32
  let main_v20 : IVec S1600000 32 := broadcastInDim S1600000 ![] bcast_S_S1600000 main_c_5
  let main_v21 : IVec S1600000 1 := cmpi .slt main_v19 main_v20
  let main_v22 : IVec S1600000 1 := andi main_v17 main_v21
  let main_c_6 : IVec S_ 1 := constantI S_ 1 1#1
  let main_v23 : IVec S_ 1 := (fun x v => Host.reduce IntOp.andi x v reducesTo_S1600000_S_d0 h_S_) main_v22 main_c_6
  let main_v24 : IVec S_ 1 := andi main_v13 main_v23
  main_v24

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x1600000 32 := (extractStridedSlice S1x1600000 ![0, 0] · slices_S2x1600000_S1x1600000_0_0) main_arg1
  let main_v15 : IVec S1600000 32 := shapeCast S1600000 main_v14 shapeCasts_S1x1600000_S1600000
  let main_c_4 : IVec S_ 32 := constantI S_ 32 4294867296#32
  let main_v16 : IVec S1600000 32 := broadcastInDim S1600000 ![] bcast_S_S1600000 main_c_4
  fn_part1 (F := F) main_arg1 main_v13 main_v15 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1700000x128 : Shape := ⟨2, ![1700000, 128]⟩
abbrev S1x128 : Shape := ⟨2, ![1, 128]⟩

abbrev nBuf : Space → Nat
  | .hbm => 63
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S100000, .f32⟩
  | .hbm, ⟨13, _⟩ => ⟨S_, .i32⟩
  | .hbm, ⟨14, _⟩ => ⟨S1700000, .i32⟩
  | .hbm, ⟨15, _⟩ => ⟨S1700000, .i1⟩
  | .hbm, ⟨16, _⟩ => ⟨S_, .i32⟩
  | .hbm, ⟨17, _⟩ => ⟨S1700000, .i32⟩
  | .hbm, ⟨18, _⟩ => ⟨S1700000, .i32⟩
  | .hbm, ⟨19, _⟩ => ⟨S1700000, .i32⟩
  | .hbm, ⟨20, _⟩ => ⟨S1700000x1, .i32⟩
  | .hbm, ⟨21, _⟩ => ⟨S_, .f32⟩
  | .hbm, ⟨22, _⟩ => ⟨S1700000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1, .i32⟩
  | .hbm, ⟨43, _⟩ => ⟨S_, .i32⟩
  | .hbm, ⟨44, _⟩ => ⟨S1700000x1, .i32⟩
  | .hbm, ⟨45, _⟩ => ⟨S1700000x1, .i1⟩
  | .hbm, ⟨46, _⟩ => ⟨S1x1, .i32⟩
  | .hbm, ⟨47, _⟩ => ⟨S1700000x1, .i32⟩
  | .hbm, ⟨48, _⟩ => ⟨S1700000x1, .i1⟩
  | .hbm, ⟨49, _⟩ => ⟨S1700000x1, .i1⟩
  | .hbm, ⟨50, _⟩ => ⟨S_, .i1⟩
  | .hbm, ⟨51, _⟩ => ⟨S1700000, .i1⟩
  | .hbm, ⟨52, _⟩ => ⟨S1700000x128, .f32⟩
  | .hbm, ⟨53, _⟩ => ⟨S1700000x128, .i1⟩
  | .hbm, ⟨54, _⟩ => ⟨S_, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v22 : Ref sig .tc := ⟨.hbm, 56, rfl⟩
abbrev main_cst_4 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S1700000, .i32⟩
  | .hbm, ⟨16, _⟩ => ⟨S1700000, .i1⟩
  | .hbm, ⟨17, _⟩ => ⟨S_, .i32⟩
  | .hbm, ⟨18, _⟩ => ⟨S1700000, .i32⟩
  | .hbm, ⟨19, _⟩ => ⟨S1700000, .i32⟩
  | .hbm, ⟨20, _⟩ => ⟨S1700000, .i32⟩
  | .hbm, ⟨21, _⟩ => ⟨S1700000x1, .i32⟩
  | .hbm, ⟨22, _⟩ => ⟨S_, .f32⟩
  | .hbm, ⟨23, _⟩ => ⟨S1700000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call1_cst : Ref sig .tc := ⟨.hbm, 71, rfl⟩
abbrev main_call1_v0 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.HostTerms.lean ====
/-
  The host side of the kernel's program, named piece by piece.

  From the edge array E (two rows of 1600000 node numbers) the program builds, with the self-loop numbers 0 … 99999
  appended, the source ids (row 0) and the destination ids (row 1); wraps a negative id round by adding the node count;
  counts, per node, the edges that arrive at it (a scatter of ones by the wrapped destination ids): the degree; and
  takes the inverse square root of the degree where it is positive and zero elsewhere: the degree scale, kept as a
  vector and as a column. Between the two launches it looks up rows of the first launch's result by the wrapped source
  ids — a row whose id is outside 0 … 99999 after the wrap is filled with the not-a-number word instead — and adds the
  looked-up rows into the rows their destination ids name (not wrapped, not clamped: an id outside the rows drops its
  row). The bias is viewed as a row.
-/
import proofs.«423162_j11467562680520_3_alg».proof.Proof.Gen.KernelIdeal

noncomputable section

namespace Cert.KernelIdeal.HostSide

open Cert.KernelIdeal Cert.KernelIdeal.Gen Idealize.ShloMosaic

variable {F : FTy → Type} [FloatOps F]

/-- Row 0 of the edge array, the self-loop numbers appended: the source id of each of the 1700000 messages. -/
def srcIds (E : IVec S2x1600000 32) : IVec S1700000 32 :=
  concatenate S1700000 0 [⟨S1600000, shapeCast S1600000 (extractStridedSlice S1x1600000 ![0, 0] E slices_S2x1600000_S1x1600000_0_0) shapeCasts_S1x1600000_S1600000⟩, ⟨S100000, iotaInDim S100000 32 0⟩] concatenates_S1600000_S100000_S1700000_d0

/-- Row 1 of the edge array, the self-loop numbers appended: the destination id of each message. -/
def dstIds (E : IVec S2x1600000 32) : IVec S1700000 32 :=
  concatenate S1700000 0 [⟨S1600000, shapeCast S1600000 (extractStridedSlice S1x1600000 ![1, 0] E slices_S2x1600000_S1x1600000_1_0) shapeCasts_S1x1600000_S1600000⟩, ⟨S100000, iotaInDim S100000 32 0⟩] concatenates_S1600000_S100000_S1700000_d0

/-- A negative id wrapped round: the node count added where the id is below zero. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A vector of ids as a column of start indices. -/
def col (v : IVec S1700000 32) : IVec S1700000x1 32 := broadcastInDim S1700000x1 ![0] bcast_S1700000_S1700000x1_0 v

/-- The degree of each node: a one added for every message whose wrapped destination id is the node. -/
def degree (dst : IVec S1700000 32) : FVec F S100000 .f32 :=
  Host.scatterAdd scatter_S100000_S1700000x1_S1700000_n_0_0_1
    (broadcastInDim S100000 ![] bcast_S_S100000 (constant S_ .f32 0x00000000#32)) (col (wrap dst))
    (broadcastInDim S1700000 ![] bcast_S_S1700000 (constant S_ .f32 0x3F800000#32))

/-- The degree scale: the inverse square root of the degree where it is positive, zero elsewhere. -/
def degScale (dst : IVec S1700000 32) : FVec F S100000 .f32 :=
  select (cmpf .ogt (degree (F := F) dst) (broadcastInDim S100000 ![] bcast_S_S100000 (constant S_ .f32 0x00000000#32)))
    (Host.rsqrt (degree (F := F) dst)) (broadcastInDim S100000 ![] bcast_S_S100000 (constant S_ .f32 0x00000000#32))

/-- The degree scale as a column. -/
def degScaleCol (dst : IVec S1700000 32) : FVec F S100000x1 .f32 :=
  shapeCast S100000x1 (degScale (F := F) dst) shapeCasts_S100000_S100000x1

/-- Per message: is the wrapped source id one of the rows 0 … 99999? -/
def inRows (src : IVec S1700000 32) : IVec S1700000 1 :=
  Host.reduce IntOp.andi
    (andi (cmpi .sge (col (wrap src)) (broadcastInDim S1700000x1 ![] bcast_S_S1700000x1 (constantI S_ 32 0#32)))
      (cmpi .sle (col (wrap src)) (broadcastInDim S1700000x1 ![0, 1] bcast_S1x1_S1700000x1_0_1
        (broadcastInDim S1x1 ![1] bcast_S1_S1x1_1 (constantI S1 32 99999#32)))))
    (constantI S_ 1 1#1) reducesTo_S1700000x1_S1700000_d1 h_S_

/-- The row lookup by wrapped source ids, a row outside 0 … 99999 filled with the not-a-number word. -/
def takeRows (h : FVec F S100000x128 .f32) (src : IVec S1700000 32) : FVec F S1700000x128 .f32 :=
  select (broadcastInDim S1700000x128 ![0] bcast_S1700000_S1700000x128_0 (inRows src))
    (Host.gather gather_S100000x128_S1700000x1_S1700000x128_1_0_n_n_0_1_1128 h (col (wrap src)))
    (broadcastInDim S1700000x128 ![] bcast_S_S1700000x128 (constant S_ .f32 0x7FC00000#32))

/-- The looked-up rows added into the rows their destination ids name. -/
def aggregate (h : FVec F S100000x128 .f32) (src dst : IVec S1700000 32) : FVec F S100000x128 .f32 :=
  Host.scatterAdd scatter_S100000x128_S1700000x1_S1700000x128_1_0_0_1
    (broadcastInDim S100000x128 ![] bcast_S_S100000x128 (constant S_ .f32 0x00000000#32)) (col dst) (takeRows h src)

/-- The bias as a row. -/
def biasRow (b : FVec F S128 .f32) : FVec F S1x128 .f32 := shapeCast S1x128 b shapeCasts_S128_S1x128

end Cert.KernelIdeal.HostSide

end
-- ==== Proof.HostStretch.lean ====
/-
  The two stretches of host operations between the launches, each read over an arbitrary starting valuation.

  The first (the row lookup) writes the looked-up rows from the table and the source ids it finds and leaves the
  destination ids, the scale column and the bias alone; the second adds the looked-up rows into the rows their
  destination ids name, starting from zeros, views the bias as a row, and leaves the scale column alone. The lookup is
  read in three steps: the column of wrapped source ids; the range test of that column; the rows gathered by the column,
  a row that fails the test replaced by the fill.
-/
import proofs.«423162_j11467562680520_3_alg».proof.Proof.Gen.KernelIdeal.Launch
import proofs.«423162_j11467562680520_3_alg».proof.Proof.HostTerms
import Idealize.ShloMosaic.Lib.StableHlo.Run
import Idealize.ShloMosaic.Lib.Pipeline.Frame

set_option maxRecDepth 16384

noncomputable section

namespace Cert.KernelIdeal.HostStretch

open Cert.KernelIdeal Cert.KernelIdeal.Gen Cert.KernelIdeal.HostSide
open Idealize.ShloMosaic Idealize.ShloMosaic.TcCoe Idealize.SL.Sem Idealize.ShloMosaic.StableHlo

variable {F : FTy → Type} [FloatOps F]

attribute [local irreducible] Host.reduce Host.gather Host.scatterAdd FloatOps.hostScatterAdd

/-- The range test of a column of ids: is each one of the rows 0 … 99999? -/
def rowsMask (c : IVec S1700000x1 32) : IVec S1700000 1 :=
  Host.reduce IntOp.andi
    (andi (cmpi .sge c (broadcastInDim S1700000x1 ![] bcast_S_S1700000x1 (constantI S_ 32 0#32)))
      (cmpi .sle c (broadcastInDim S1700000x1 ![0, 1] bcast_S1x1_S1700000x1_0_1
        (broadcastInDim S1x1 ![1] bcast_S1_S1x1_1 (constantI S1 32 99999#32)))))
    (constantI S_ 1 1#1) reducesTo_S1700000x1_S1700000_d1 h_S_

/-- The lookup's operations that build the column of wrapped source ids. -/
abbrev opsA : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1700000, .i32⟩) (broadcastInDim S1700000 ![] bcast_S_S1700000),
    StableHlo.TRef.binary (.of main_v3 : StableHlo.TRef sig ⟨S1700000, .i32⟩) (.of main_call1_v0 : StableHlo.TRef sig ⟨S1700000, .i32⟩) (.of main_call1_v1 : StableHlo.TRef sig ⟨S1700000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S1700000, .i32⟩) (broadcastInDim S1700000 ![] bcast_S_S1700000),
    StableHlo.TRef.binary (.of main_v3 : StableHlo.TRef sig ⟨S1700000, .i32⟩) (.of main_call1_v2 : StableHlo.TRef sig ⟨S1700000, .i32⟩) (.of main_call1_v3 : StableHlo.TRef sig ⟨S1700000, .i32⟩) addi,
    StableHlo.TRef.ternary (.of main_call1_v1 : StableHlo.TRef sig ⟨S1700000, .i1⟩) (.of main_call1_v3 : StableHlo.TRef sig ⟨S1700000, .i32⟩) (.of main_v3 : StableHlo.TRef sig ⟨S1700000, .i32⟩) (.of main_call1_v4 : StableHlo.TRef sig ⟨S1700000, .i32⟩) select,
    StableHlo.TRef.unary main_call1_call0.v0 (.of main_call1_v5 : StableHlo.TRef sig ⟨S1700000x1, .i32⟩) (broadcastInDim S1700000x1 ![0] bcast_S1700000_S1700000x1_0) ]
/-- The lookup's operations that test the column against the rows' range. -/
abbrev opsB : List (HloOp τ sig (Elt F)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1700000x1, .i32⟩) (broadcastInDim S1700000x1 ![] bcast_S_S1700000x1),
    StableHlo.TRef.binary (.of main_call1_v5 : StableHlo.TRef sig ⟨S1700000x1, .i32⟩) (.of main_call1_v6 : StableHlo.TRef sig ⟨S1700000x1, .i32⟩) (.of main_call1_v7 : StableHlo.TRef sig ⟨S1700000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1700000x1, .i32⟩) (broadcastInDim S1700000x1 ![0, 1] bcast_S1x1_S1700000x1_0_1),
    StableHlo.TRef.binary (.of main_call1_v5 : StableHlo.TRef sig ⟨S1700000x1, .i32⟩) (.of main_call1_v9 : StableHlo.TRef sig ⟨S1700000x1, .i32⟩) (.of main_call1_v10 : StableHlo.TRef sig ⟨S1700000x1, .i1⟩) (cmpi .sle),
    StableHlo.TRef.binary (.of main_call1_v7 : StableHlo.TRef sig ⟨S1700000x1, .i1⟩) (.of main_call1_v10 : StableHlo.TRef sig ⟨S1700000x1, .i1⟩) (.of main_call1_v11 : StableHlo.TRef sig ⟨S1700000x1, .i1⟩) andi,
    StableHlo.TRef.nullary (.of main_call1_c_3 : StableHlo.TRef sig ⟨S_, .i1⟩) (constantI S_ 1 1#1),
    StableHlo.TRef.binary (.of main_call1_v11 : StableHlo.TRef sig ⟨S1700000x1, .i1⟩) (.of main_call1_c_3 : StableHlo.TRef sig ⟨S_, .i1⟩) (.of main_call1_v12 : StableHlo.TRef sig ⟨S1700000, .i1⟩) (fun x v => Host.reduce IntOp.andi x v reducesTo_S1700000x1_S1700000_d1 h_S_) ]
/-- The lookup's operations that gather the rows and replace those that fail the test. -/
abbrev opsC : List (HloOp τ sig (Elt F)) :=
  [ StableHlo.TRef.binary (.of main_v21 : StableHlo.TRef sig ⟨S100000x128, .f32⟩) (.of main_call1_v5 : StableHlo.TRef sig ⟨S1700000x1, .i32⟩) (.of main_call1_v13 : StableHlo.TRef sig ⟨S1700000x128, .f32⟩) (fun x i => Host.gather gather_S100000x128_S1700000x1_S1700000x128_1_0_n_n_0_1_1128 x i),
    StableHlo.TRef.unary (.of main_call1_v12 : StableHlo.TRef sig ⟨S1700000, .i1⟩) (.of main_call1_v14 : StableHlo.TRef sig ⟨S1700000x128, .i1⟩) (broadcastInDim S1700000x128 ![0] bcast_S1700000_S1700000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1700000x128, .f32⟩) (broadcastInDim S1700000x128 ![] bcast_S_S1700000x128),
    StableHlo.TRef.ternary (.of main_call1_v14 : StableHlo.TRef sig ⟨S1700000x128, .i1⟩) (.of main_call1_v13 : StableHlo.TRef sig ⟨S1700000x128, .f32⟩) (.of main_call1_v15 : StableHlo.TRef sig ⟨S1700000x128, .f32⟩) (.of main_v22 : StableHlo.TRef sig ⟨S1700000x128, .f32⟩) select ]

/-- The lookup stretch is those three runs of operations, in order. -/
theorem hostOps1_split : (hostOps1 : List (HloOp τ sig (Elt F))) = opsA ++ (opsB ++ opsC) := rfl

variable (Vv : Valuation τ sig (Elt F))

set_option maxHeartbeats 4000000 in
theorem A_col : StableHlo.after opsA Vv (Proc.devRef .tc main_call1_v5) = col (wrap (Vv (Proc.devRef .tc main_v3))) := by
  after_results_simp <;> rfl
set_option maxHeartbeats 4000000 in
theorem A_keep : StableHlo.after opsA Vv (Proc.devRef .tc main_v21) = Vv (Proc.devRef .tc main_v21) := by
  after_results_simp <;> rfl
set_option maxHeartbeats 4000000 in
theorem B_mask : StableHlo.after opsB Vv (Proc.devRef .tc main_call1_v12) = rowsMask (Vv (Proc.devRef .tc main_call1_v5)) := by
  after_results_simp <;> rfl
set_option maxHeartbeats 4000000 in
theorem B_keep_col : StableHlo.after opsB Vv (Proc.devRef .tc main_call1_v5) = Vv (Proc.devRef .tc main_call1_v5) := by
  after_results_simp <;> rfl
set_option maxHeartbeats 4000000 in
theorem B_keep : StableHlo.after opsB Vv (Proc.devRef .tc main_v21) = Vv (Proc.devRef .tc main_v21) := by
  after_results_simp <;> rfl
set_option maxHeartbeats 4000000 in
theorem C_rows : StableHlo.after opsC Vv (Proc.devRef .tc main_v22)
    = select (broadcastInDim S1700000x128 ![0] bcast_S1700000_S1700000x128_0 (Vv (Proc.devRef .tc main_call1_v12)))
        (Host.gather gather_S100000x128_S1700000x1_S1700000x128_1_0_n_n_0_1_1128 (Vv (Proc.devRef .tc main_v21)) (Vv (Proc.devRef .tc main_call1_v5)))
        (broadcastInDim S1700000x128 ![] bcast_S_S1700000x128 (constant (F := F) S_ .f32 0x7FC00000#32)) := by
  after_results_simp <;> rfl

/-- The lookup stretch writes the looked-up rows. -/
theorem lookup_rows : StableHlo.after hostOps1 Vv (Proc.devRef .tc main_v22)
    = takeRows (F := F) (Vv (Proc.devRef .tc main_v21)) (Vv (Proc.devRef .tc main_v3)) := by
  rw [hostOps1_split, StableHlo.after_append, StableHlo.after_append, C_rows, B_mask, B_keep, B_keep_col, A_col, A_keep]
  rfl

set_option maxHeartbeats 8000000 in
/-- The lookup stretch leaves the destination ids alone. -/
theorem lookup_dst : StableHlo.after hostOps1 Vv (Proc.devRef .tc main_v6) = Vv (Proc.devRef .tc main_v6) := by
  after_results_simp <;> rfl

set_option maxHeartbeats 8000000 in
/-- The lookup stretch leaves the scale column alone. -/
theorem lookup_scale : StableHlo.after hostOps1 Vv (Proc.devRef .tc main_v20) = Vv (Proc.devRef .tc main_v20) := by
  after_results_simp <;> rfl

set_option maxHeartbeats 8000000 in
/-- The lookup stretch leaves the bias alone. -/
theorem lookup_bias : StableHlo.after hostOps1 Vv (Proc.devRef .tc main_arg3) = Vv (Proc.devRef .tc main_arg3) := by
  after_results_simp <;> rfl

/-- The adding stretch: the looked-up rows added, from zeros, into the rows their destination ids name. -/
theorem add_rows : StableHlo.after hostOps1_1 Vv (Proc.devRef .tc main_v25)
    = Host.scatterAdd (F := F) scatter_S100000x128_S1700000x1_S1700000x128_1_0_0_1
        (broadcastInDim S100000x128 ![] bcast_S_S100000x128 (constant S_ .f32 0x00000000#32))
        (col (Vv (Proc.devRef .tc main_v6))) (Vv (Proc.devRef .tc main_v22)) := by
  after_results <;> rfl

/-- The adding stretch leaves the scale column alone. -/
theorem add_scale : StableHlo.after hostOps1_1 Vv (Proc.devRef .tc main_v20) = Vv (Proc.devRef .tc main_v20) := by
  after_results <;> rfl

/-- The adding stretch views the bias as a row. -/
theorem add_bias : StableHlo.after hostOps1_1 Vv (Proc.devRef .tc main_v26) = biasRow (F := F) (Vv (Proc.devRef .tc main_arg3)) := by
  after_results <;> rfl

end Cert.KernelIdeal.HostStretch

end
-- ==== Proof.HostRead0.lean ====
/-
  What the first launch finds: the buffers it and the later host operations read, as functions of the launch memory.

  Before the first launch the program has only computed, from the edge array, the source and destination ids, the
  degree and the degree scale; the feature, weight and bias arrays are as launched.
-/
import proofs.«423162_j11467562680520_3_alg».proof.Proof.Gen.KernelIdeal.Frame
import proofs.«423162_j11467562680520_3_alg».proof.Proof.HostTerms
import Idealize.ShloMosaic.Lib.StableHlo.Run

set_option maxRecDepth 16384

noncomputable section

namespace Cert.KernelIdeal.HostRead

open Cert.KernelIdeal Cert.KernelIdeal.Gen Cert.KernelIdeal.HostSide
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The source ids at the first launch's entry. -/
theorem entry0_src (c : Dev nD) : W3 m ρ c (Proc.devRef .tc main_v3) = srcIds (m ((c : Thread nD τ).loc main_arg1)) := by
  show StableHlo.after hostOps0_2 (StableHlo.after hostOps0_1 (StableHlo.after hostOps0 (W0 m ρ c))) (Proc.devRef .tc main_v3) = _
  after_results <;> rfl

set_option maxHeartbeats 8000000 in
/-- The destination ids at the first launch's entry. -/
theorem entry0_dst (c : Dev nD) : W3 m ρ c (Proc.devRef .tc main_v6) = dstIds (m ((c : Thread nD τ).loc main_arg1)) := by
  show StableHlo.after hostOps0_2 (StableHlo.after hostOps0_1 (StableHlo.after hostOps0 (W0 m ρ c))) (Proc.devRef .tc main_v6) = _
  after_results <;> rfl

set_option maxHeartbeats 8000000 in
/-- The degree-scale column at the first launch's entry. -/
theorem entry0_scale (c : Dev nD) : W3 m ρ c (Proc.devRef .tc main_v20) = degScaleCol (F := F) (dstIds (m ((c : Thread nD τ).loc main_arg1))) := by
  show StableHlo.after hostOps0_2 (StableHlo.after hostOps0_1 (StableHlo.after hostOps0 (W0 m ρ c))) (Proc.devRef .tc main_v20) = _
  after_results_simp <;> rfl

set_option maxHeartbeats 8000000 in
/-- The features at the first launch's entry: as launched. -/
theorem entry0_x (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

set_option maxHeartbeats 8000000 in
/-- The weights at the first launch's entry: as launched. -/
theorem entry0_w (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

set_option maxHeartbeats 8000000 in
/-- The bias at the first launch's entry: as launched. -/
theorem entry0_b (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

end Cert.KernelIdeal.HostRead

end
-- ==== Proof.LibKeepdims.lean ====
/-
  Two layout readings used by every reduction that keeps its reduced axis as a unit axis (a row statistic kept as a
  column): a vector [a] viewed as a column [a, 1], and a column [a, 1] spread over the b entries of each row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector's entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region0.lean ====
/-
  The first dense stage, read as one array.

  Grid point t of the first launch takes rows 5000·t … 5000·t + 4999 of the features x, the whole weight matrix w and
  the same rows of the degree-scale column d, and writes the same rows of its result: entry (p, q) of the block is
  (∑ₖ x(p, k) · w(k, q)) · d(p, 0) — the rounding of both operands to a shorter float format before the product is the
  identity on the extended reals, and the product into a zero accumulator is the plain sum over the contracted axis.
  The twenty blocks tile the 100000 rows, so after the launch the result array is, at every (i, j),
  (∑ₖ x(i, k) · w(k, j)) · d(i, 0) of the arrays the launch was entered with.
-/
import proofs.«423162_j11467562680520_3_alg».proof.Proof.Gen.KernelIdeal.Frame
import proofs.«423162_j11467562680520_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Transform

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The stage as one function of whole arrays: the matrix product of `x` and `w`, each row scaled by that row's entry
    of the column `d`. -/
def matScale (x : S100000x128.Idx → EReal) (w : S128x128.Idx → EReal) (d : S100000x1.Idx → EReal) :
    S100000x128.Idx → EReal :=
  fun i => (∑ k : Fin 128, x (ix2 (⟨(i 0).val, (i 0).isLt⟩ : Fin 100000) k) * w (ix2 k (⟨(i 1).val, (i 1).isLt⟩ : Fin 128)))
    * d (ix2 (⟨(i 0).val, (i 0).isLt⟩ : Fin 100000) (0 : Fin 1))

/-! ## The block product at one entry -/

/-- The left operand's index at an output entry and a contraction index: the entry's row … -/
theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction coordinate as its column. -/
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: the contraction coordinate as its row … -/
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- … and the entry's column. -/
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the block product into the zero accumulator: ∑ₖ l(p, k) · r(k, q). -/
theorem matmul_entry {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's arithmetic on one block, entry by entry. -/
theorem pay_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, matmul_entry, shapeCast_self, Cert.LibKeepdims.broadcastTo_a1_ab_apply]
  rfl

theorem hz : (![0, 0] : Fin 2 → Nat) = fun _ => 0 := funext fun a => by fin_cases a <;> rfl

/-- The printed block index maps over the twenty grid points: the three row-blocked windows move together along the
    rows and stay at column block 0; the weight matrix's window stays at block (0, 0). -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 19 :=
  (by decide +kernel : ∀ t : Fin grid0.N, _)

/-- Every row block is some grid point's. -/
theorem idx_onto : ∀ (q0 : Fin 20), ∃ t : Fin cfg0.N, win0_3.index t = ![q0.val, 0] :=
  (by decide +kernel : ∀ (q0 : Fin 20), ∃ t : Fin grid0.N, win0_3.index t = ![q0.val, 0])

variable (V : (c : Dev nD) → (b : Ref sig .tc) → Buf (Elt Ideal) ((c : Thread nD τ).loc b))

/-- The three arrays the launch reads, as it finds them, each at its literal type. -/
abbrev xArr (c : Dev nD) : S100000x128.Idx → EReal := V c main_arg0
abbrev wArr (c : Dev nD) : S128x128.Idx → EReal := V c main_arg2
abbrev dArr (c : Dev nD) : S100000x1.Idx → EReal := V c main_v20

/-- What grid point `t` writes back is block `t` of `matScale` of the arrays the launch was entered with. -/
theorem flushed_eq (c : Dev nD) (t : Fin cfg0.N) :
    (dat0 V c).flushed 3 t = ((cfg0.win 3).blk t).view.read (Elt Ideal)
      (matScale (xArr V c) (wArr V c) (dArr V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) p q).trans ?_
  show (∑ k : Fin 128, xArr V c (((cfg0.win 0).blk t).view.emb (ix2 p k)) * wArr V c (((cfg0.win 1).blk t).view.emb (ix2 k q)))
        * dArr V c (((cfg0.win 2).blk t).view.emb (ix2 p (0 : Fin 1)))
      = matScale (xArr V c) (wArr V c) (dArr V c) (((cfg0.win 3).blk t).view.emb (ix2 p q))
  have h0 : ∀ k : Fin 128, ((cfg0.win 0).blk t).view.emb (ix2 p k)
      = ix2 (⟨((((cfg0.win 3).blk t).view.emb (ix2 p q)) 0).val, ((((cfg0.win 3).blk t).view.emb (ix2 p q)) 0).isLt⟩ : Fin 100000) k := by
    intro k; funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q)
      = ix2 k (⟨((((cfg0.win 3).blk t).view.emb (ix2 p q)) 1).val, ((((cfg0.win 3).blk t).view.emb (ix2 p q)) 1).isLt⟩ : Fin 128) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 p (0 : Fin 1))
      = ix2 (⟨((((cfg0.win 3).blk t).view.emb (ix2 p q)) 0).val, ((((cfg0.win 3).blk t).view.emb (ix2 p q)) 0).isLt⟩ : Fin 100000) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [h2]
  simp only [h0, h1]
  rfl

/-- An index of the result array lies in grid point `t`'s block iff each coordinate lies in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v21).slice (win0_3.rect t)).set ↔ _
  rw [View.set_slice_whole, Rect.mem_set_unit]
  exact Iff.rfl

/-- The twenty blocks of 5000 rows cover the array: row r lies in the block of grid point r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the launch: `matScale` of the arrays the launch was entered with. -/
theorem final (c : Dev nD) : (dat0 V c).arrAt 3 cfg0.N = matScale (xArr V c) (wArr V c) (dArr V c) :=
  (dat0 V c).arrAt_eq_of_cover 3 _ (fun t _ => flushed_eq V c t) cover

end Cert.KernelIdeal.Transform

end
-- ==== Proof.Region1.lean ====
/-
  The second dense stage, read as one array.

  Grid point t of the second launch takes rows 5000·t … 5000·t + 4999 of the aggregated features s, the same rows of
  the degree-scale column d, and the whole bias row b, and writes the same rows of the result: entry (p, q) of the
  block is max (s(p, q) · d(p, 0) + b(0, q), 0). The twenty blocks tile the 100000 rows, so after the launch the
  result array is, at every (i, j), max (s(i, j) · d(i, 0) + b(0, j), 0) of the arrays the launch was entered with.
-/
import proofs.«423162_j11467562680520_3_alg».proof.Proof.Gen.KernelIdeal.Frame
import proofs.«423162_j11467562680520_3_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Epilogue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The stage as one function of whole arrays: scale each row of `s` by that row's entry of the column `d`, add the
    bias row, clip below at zero. -/
def scaleBiasClip (s : S100000x128.Idx → EReal) (d : S100000x1.Idx → EReal) (b : S1x128.Idx → EReal) :
    S100000x128.Idx → EReal :=
  fun i => max (s i * d (ix2 (⟨(i 0).val, (i 0).isLt⟩ : Fin 100000) (0 : Fin 1))
      + b (ix2 (0 : Fin 1) (⟨(i 1).val, (i 1).isLt⟩ : Fin 128))) (Ideal.ofBits .f32 0x00000000#32)

/-- The body's arithmetic on one block, entry by entry. -/
theorem pay_apply (x0 : Vec Ideal S5000x128 .f32) (x1 : Vec Ideal S5000x1 .f32) (x2 : Vec Ideal S1x128 .f32)
    (p : Fin 5000) (q : Fin 128) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  rw [maximumf_apply, addf_apply, mulf_apply, broadcast_apply, shapeCast_self, shapeCast_self, shapeCast_self,
    Cert.LibKeepdims.broadcastTo_a1_ab_apply, broadcastTo_1b_ab_apply]
  rfl

theorem hz : (![0, 0] : Fin 2 → Nat) = fun _ => 0 := funext fun a => by fin_cases a <;> rfl

/-- The printed block index maps over the twenty grid points: the three row-blocked windows move together along the
    rows and stay at column block 0; the bias row's window stays at block (0, 0). -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every row block is some grid point's. -/
theorem idx_onto : ∀ (q0 : Fin 20), ∃ t : Fin cfg1.N, win1_3.index t = ![q0.val, 0] :=
  (by decide +kernel : ∀ (q0 : Fin 20), ∃ t : Fin grid1.N, win1_3.index t = ![q0.val, 0])

variable (V : (c : Dev nD) → (b : Ref sig .tc) → Buf (Elt Ideal) ((c : Thread nD τ).loc b))

/-- The three arrays the launch reads, as it finds them, each at its literal type. -/
abbrev sArr (c : Dev nD) : S100000x128.Idx → EReal := V c main_v25
abbrev dArr (c : Dev nD) : S100000x1.Idx → EReal := V c main_v20
abbrev bArr (c : Dev nD) : S1x128.Idx → EReal := V c main_v26

/-- What grid point `t` writes back is block `t` of `scaleBiasClip` of the arrays the launch was entered with. -/
theorem flushed_eq (c : Dev nD) (t : Fin cfg1.N) :
    (dat1 V c).flushed 3 t = ((cfg1.win 3).blk t).view.read (Elt Ideal)
      (scaleBiasClip (sArr V c) (dArr V c) (bArr V c)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) p q).trans ?_
  show max (sArr V c (((cfg1.win 0).blk t).view.emb (ix2 p q)) * dArr V c (((cfg1.win 1).blk t).view.emb (ix2 p (0 : Fin 1)))
        + bArr V c (((cfg1.win 2).blk t).view.emb (ix2 (0 : Fin 1) q))) (Ideal.ofBits .f32 0x00000000#32)
      = scaleBiasClip (sArr V c) (dArr V c) (bArr V c) (((cfg1.win 3).blk t).view.emb (ix2 p q))
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : ((cfg1.win 1).blk t).view.emb (ix2 p (0 : Fin 1))
      = ix2 (⟨((((cfg1.win 3).blk t).view.emb (ix2 p q)) 0).val, ((((cfg1.win 3).blk t).view.emb (ix2 p q)) 0).isLt⟩ : Fin 100000) (0 : Fin 1) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have h2 : ((cfg1.win 2).blk t).view.emb (ix2 (0 : Fin 1) q)
      = ix2 (0 : Fin 1) (⟨((((cfg1.win 3).blk t).view.emb (ix2 p q)) 1).val, ((((cfg1.win 3).blk t).view.emb (ix2 p q)) 1).isLt⟩ : Fin 128) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]
  rfl

/-- An index of the result array lies in grid point `t`'s block iff each coordinate lies in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v27).slice (win1_3.rect t)).set ↔ _
  rw [View.set_slice_whole, Rect.mem_set_unit]
  exact Iff.rfl

/-- The twenty blocks of 5000 rows cover the array: row r lies in the block of grid point r / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the launch: `scaleBiasClip` of the arrays the launch was entered with. -/
theorem final (c : Dev nD) : (dat1 V c).arrAt 3 cfg1.N = scaleBiasClip (sArr V c) (dArr V c) (bArr V c) :=
  (dat1 V c).arrAt_eq_of_cover 3 _ (fun t _ => flushed_eq V c t) cover

end Cert.KernelIdeal.Epilogue

end
-- ==== Proof.HostRead1.lean ====
/-
  What the second launch finds, and what the program returns.

  Between the launches the program looks up rows of the first launch's result by the source ids and adds them into the
  rows their destination ids name; it views the bias as a row; nothing else the second launch reads has changed since
  the first launch's entry. The first launch's result is the row-scaled matrix product of the features and the
  weights; the second launch's result — the program's — is the scaled, biased and clipped aggregation.
-/
import proofs.«423162_j11467562680520_3_alg».proof.Proof.Gen.KernelIdeal.Frame
import proofs.«423162_j11467562680520_3_alg».proof.Proof.HostTerms
import proofs.«423162_j11467562680520_3_alg».proof.Proof.HostStretch
import proofs.«423162_j11467562680520_3_alg».proof.Proof.HostRead0
import proofs.«423162_j11467562680520_3_alg».proof.Proof.Region0
import proofs.«423162_j11467562680520_3_alg».proof.Proof.Region1

set_option maxRecDepth 16384

noncomputable section

namespace Cert.KernelIdeal.HostRead

open Cert.KernelIdeal Cert.KernelIdeal.Gen Cert.KernelIdeal.HostSide
open Idealize.ShloMosaic Idealize.ShloMosaic.TcCoe Idealize.SL.Sem Idealize.ShloMosaic.StableHlo

section Generic

variable {F : FTy → Type} [FloatOps F]
variable (m : (ℓ : Loc nD τ sig) → Buf (Elt F) ℓ) (ρ : Dev nD → PrngReg)

/-- The aggregated features at the second launch's entry, from what the first launch left. -/
theorem entry1_agg (c : Dev nD) : W6 m ρ c (Proc.devRef .tc main_v25)
    = aggregate (F := F) (W4 m ρ c (Proc.devRef .tc main_v21)) (W4 m ρ c (Proc.devRef .tc main_v3)) (W4 m ρ c (Proc.devRef .tc main_v6)) := by
  show StableHlo.after hostOps1_1 (StableHlo.after hostOps1 (W4 m ρ c)) (Proc.devRef .tc main_v25) = _
  rw [HostStretch.add_rows, HostStretch.lookup_rows, HostStretch.lookup_dst]
  rfl

/-- The degree-scale column at the second launch's entry: what the first launch left there. -/
theorem entry1_scale (c : Dev nD) : W6 m ρ c (Proc.devRef .tc main_v20) = W4 m ρ c (Proc.devRef .tc main_v20) := by
  show StableHlo.after hostOps1_1 (StableHlo.after hostOps1 (W4 m ρ c)) (Proc.devRef .tc main_v20) = _
  rw [HostStretch.add_scale, HostStretch.lookup_scale]

/-- The bias row at the second launch's entry. -/
theorem entry1_bias (c : Dev nD) : W6 m ρ c (Proc.devRef .tc main_v26) = biasRow (F := F) (W4 m ρ c (Proc.devRef .tc main_arg3)) := by
  show StableHlo.after hostOps1_1 (StableHlo.after hostOps1 (W4 m ρ c)) (Proc.devRef .tc main_v26) = _
  rw [HostStretch.add_bias, HostStretch.lookup_bias]

/-- The first launch leaves the buffers that are not its output as it found them. -/
theorem left_src (c : Dev nD) : W4 m ρ c (Proc.devRef .tc main_v3) = srcIds (m ((c : Thread nD τ).loc main_arg1)) :=
  (W4_of_ne m ρ c main_v3 (by decide)).trans (entry0_src m ρ c)
theorem left_dst (c : Dev nD) : W4 m ρ c (Proc.devRef .tc main_v6) = dstIds (m ((c : Thread nD τ).loc main_arg1)) :=
  (W4_of_ne m ρ c main_v6 (by decide)).trans (entry0_dst m ρ c)
theorem left_b (c : Dev nD) : W4 m ρ c (Proc.devRef .tc main_arg3) = m ((c : Thread nD τ).loc main_arg3) :=
  (W4_of_ne m ρ c main_arg3 (by decide)).trans (entry0_b m ρ c)
/-- The scale column is one of the first launch's inputs: read, not written. -/
theorem left_scale (c : Dev nD) : W4 m ρ c (Proc.devRef .tc main_v20) = degScaleCol (F := F) (dstIds (m ((c : Thread nD τ).loc main_arg1))) :=
  ((W4_arr m ρ c 2).trans (((dat0 (V3 m ρ) c).arrAt_in 2 rfl _).trans (A_eq0 (V3 m ρ) c 2))).trans (entry0_scale m ρ c)

end Generic

section AtIdeal

variable (m : (ℓ : Loc nD τ sig) → Buf (Elt Ideal) ℓ) (ρ : Dev nD → PrngReg)

/-- The first launch's result: the row-scaled product of the features and the weights. -/
theorem left_rows (c : Dev nD) : W4 m ρ c (Proc.devRef .tc main_v21)
    = Transform.matScale (m ((c : Thread nD τ).loc main_arg0)) (m ((c : Thread nD τ).loc main_arg2))
        (degScaleCol (F := Ideal) (dstIds (m ((c : Thread nD τ).loc main_arg1)))) := by
  refine (W4_arr m ρ c 3).trans ((Transform.final (V3 m ρ) c).trans ?_)
  show Transform.matScale (W3 m ρ c (Proc.devRef .tc main_arg0)) (W3 m ρ c (Proc.devRef .tc main_arg2)) (W3 m ρ c (Proc.devRef .tc main_v20)) = _
  rw [entry0_x, entry0_w, entry0_scale]

/-- THE PROGRAM'S RESULT as one function of the launch memory's argument arrays. -/
theorem result_eq (c : Dev nD) : W7 m ρ c (Proc.devRef .tc main_v27)
    = Epilogue.scaleBiasClip
        (aggregate (F := Ideal)
          (Transform.matScale (m ((c : Thread nD τ).loc main_arg0)) (m ((c : Thread nD τ).loc main_arg2))
            (degScaleCol (F := Ideal) (dstIds (m ((c : Thread nD τ).loc main_arg1)))))
          (srcIds (m ((c : Thread nD τ).loc main_arg1))) (dstIds (m ((c : Thread nD τ).loc main_arg1))))
        (degScaleCol (F := Ideal) (dstIds (m ((c : Thread nD τ).loc main_arg1))))
        (biasRow (F := Ideal) (m ((c : Thread nD τ).loc main_arg3))) := by
  refine (W7_arr m ρ c 3).trans ((Epilogue.final (V6 m ρ) c).trans ?_)
  show Epilogue.scaleBiasClip (W6 m ρ c (Proc.devRef .tc main_v25)) (W6 m ρ c (Proc.devRef .tc main_v20)) (W6 m ρ c (Proc.devRef .tc main_v26)) = _
  rw [entry1_agg, entry1_scale, entry1_bias, left_rows, left_src, left_dst, left_scale, left_b]

end AtIdeal

end Cert.KernelIdeal.HostRead

end
-- ==== Proof.SrcRange.lean ====
/-
  The source ids after the wrap are rows of the table.

  The precondition says, beside the finiteness of the float inputs, that every entry of row 0 of the edge array lies in
  −100000 … 99999. The source ids are that row with the numbers 0 … 99999 appended; the wrap adds 100000 to a negative
  id. So every wrapped source id lies in 0 … 99999.
-/
import proofs.«423162_j11467562680520_3_alg».proof.Proof.Gen.Pre_finite_inputs
import proofs.«423162_j11467562680520_3_alg».proof.Proof.HostTerms
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

namespace Cert.SrcRange

open Idealize.ShloMosaic Idealize.ShloMosaic.ValueIdx

/-- A scalar has one index. -/
private theorem scalar_idx_subsingleton : Subsingleton (⟨0, ![]⟩ : Shape).Idx := ⟨fun a b => funext fun d => d.elim0⟩

/-- Row 0 of the edge array, cut out and reshaped to a vector, read at e: the entry (0, e). -/
private theorem row0_apply {α : Type} (E : (⟨2, ![2, 1600000]⟩ : Shape).Idx → α)
    (hs : (⟨2, ![2, 1600000]⟩ : Shape).Slices ![0, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![0, 0] E hs) hc (ix1 e) = E (ix2 (0 : Fin 2) e) := by
  rw [shapeCast_apply _ hc (ix1 e) (ix2 (0 : Fin 1) e)
    (by rw [Shape.rowMajor_val_two, Shape.rowMajor_val_one]; show 0 * 1600000 + e.val = e.val; omega)]
  exact extractStridedSlice_apply ![0, 0] E hs (ix2 (0 : Fin 1) e) (ix2 (0 : Fin 2) e) (fun a => match a with
    | ⟨0, _⟩ => by show (0 : Nat) = 0 + 0; rfl
    | ⟨1, _⟩ => by show e.val = 0 + e.val; omega)

private theorem toInt_lo : (4294867296#32 : BitVec 32).toInt = -100000 := by decide
private theorem toInt_hi : (100000#32 : BitVec 32).toInt = 100000 := by decide

/-- The two compares of the precondition, read back as the range of the word. -/
private theorem range_of_cmp (w : BitVec 32) (h1 : IntOp.cmpi .sge w 4294867296#32 = 1#1)
    (h2 : IntOp.cmpi .slt w 100000#32 = 1#1) : -100000 ≤ w.toInt ∧ w.toInt < 100000 := by
  unfold IntOp.cmpi at h1 h2
  rw [StableHlo.Predicate.ofBool_eq_one_iff] at h1 h2
  simp only [BitVec.sle, BitVec.slt, decide_eq_true_eq, toInt_lo, toInt_hi] at h1 h2
  exact ⟨h1, h2⟩

/-- The wrap of a word in −100000 … 99999 lies in 0 … 99999. -/
private theorem wrap_range (w : BitVec 32) (h1 : -100000 ≤ w.toInt) (h2 : w.toInt < 100000) :
    0 ≤ (Scalar.select (IntOp.cmpi .slt w 0#32) (IntOp.addi w 100000#32) w).toInt
      ∧ (Scalar.select (IntOp.cmpi .slt w 0#32) (IntOp.addi w 100000#32) w).toInt ≤ 99999 := by
  by_cases hn : w.toInt < 0
  · have hs : w.slt 0#32 = true := by
      unfold BitVec.slt
      rw [BitVec.toInt_zero]
      exact decide_eq_true hn
    have hsel : Scalar.select (IntOp.cmpi .slt w 0#32) (IntOp.addi w 100000#32) w = w + 100000#32 := by
      show Scalar.select (BitVec.ofBool (w.slt 0#32)) (w + 100000#32) w = _
      rw [hs]
      exact select_one _ _
    rw [hsel, BitVec.toInt_add, toInt_hi, Int.bmod_def]
    split <;> omega
  · have hs : w.slt 0#32 = false := by
      unfold BitVec.slt
      rw [BitVec.toInt_zero]
      exact decide_eq_false hn
    have hsel : Scalar.select (IntOp.cmpi .slt w 0#32) (IntOp.addi w 100000#32) w = w := by
      show Scalar.select (BitVec.ofBool (w.slt 0#32)) (w + 100000#32) w = _
      rw [hs]
      exact select_zero _ _
    rw [hsel]
    omega

/-- THE PRECONDITION DECODED at edge e: the source entry of the edge array lies in −100000 … 99999. -/
theorem pre_src_range {F : FTy → Type} [FloatOps F]
    (x : FVec F Cert.Pre_finite_inputs.S100000x128 .f32) (E : IVec Cert.Pre_finite_inputs.S2x1600000 32)
    (w : FVec F Cert.Pre_finite_inputs.S128x128 .f32) (b : FVec F Cert.Pre_finite_inputs.S128 .f32)
    (h : Cert.Pre_finite_inputs.fn (F := F) x E w b = fun _ => 1#1) (e : Fin 1600000) :
    -100000 ≤ (E (ix2 (0 : Fin 2) e)).toInt ∧ (E (ix2 (0 : Fin 2) e)).toInt < 100000 := by
  have e0 : Cert.Pre_finite_inputs.fn (F := F) x E w b ix0 = 1#1 := congrFun h ix0
  have e1 := (IntOp.andi_eq_one.1 e0).2
  have e2 := @Host.reduce_andi_all _ _ _ _ scalar_idx_subsingleton _ _ _ _ _ e1 (ix1 e)
  obtain ⟨e3, e4⟩ := IntOp.andi_eq_one.1 e2
  have hv := row0_apply E Cert.Pre_finite_inputs.Facts.slices_S2x1600000_S1x1600000_0_0
    Cert.Pre_finite_inputs.Facts.shapeCasts_S1x1600000_S1600000 e
  have e3' : IntOp.cmpi .sge (shapeCast (⟨1, ![1600000]⟩ : Shape) (extractStridedSlice (⟨2, ![1, 1600000]⟩ : Shape) ![0, 0] E
      Cert.Pre_finite_inputs.Facts.slices_S2x1600000_S1x1600000_0_0) Cert.Pre_finite_inputs.Facts.shapeCasts_S1x1600000_S1600000 (ix1 e))
      4294867296#32 = 1#1 := e3
  have e4' : IntOp.cmpi .slt (shapeCast (⟨1, ![1600000]⟩ : Shape) (extractStridedSlice (⟨2, ![1, 1600000]⟩ : Shape) ![0, 0] E
      Cert.Pre_finite_inputs.Facts.slices_S2x1600000_S1x1600000_0_0) Cert.Pre_finite_inputs.Facts.shapeCasts_S1x1600000_S1600000 (ix1 e))
      100000#32 = 1#1 := e4
  rw [hv] at e3' e4'
  exact range_of_cmp _ e3' e4'

/-- Every wrapped source id is one of the rows 0 … 99999. -/
theorem wrapped_src_in_rows (E : IVec Cert.KernelIdeal.S2x1600000 32)
    (hE : ∀ e : Fin 1600000, -100000 ≤ (E (ix2 (0 : Fin 2) e)).toInt ∧ (E (ix2 (0 : Fin 2) e)).toInt < 100000)
    (e : Fin 1700000) :
    0 ≤ (Cert.KernelIdeal.HostSide.wrap (Cert.KernelIdeal.HostSide.srcIds E) (ix1 e)).toInt
      ∧ (Cert.KernelIdeal.HostSide.wrap (Cert.KernelIdeal.HostSide.srcIds E) (ix1 e)).toInt ≤ 99999 := by
  have hr : -100000 ≤ (Cert.KernelIdeal.HostSide.srcIds E (ix1 e)).toInt
      ∧ (Cert.KernelIdeal.HostSide.srcIds E (ix1 e)).toInt < 100000 := by
    by_cases hlt : e.val < 1600000
    · -- an edge's message: the source entry of the edge array
      have hl : Cert.KernelIdeal.HostSide.srcIds E (ix1 e)
          = shapeCast (⟨1, ![1600000]⟩ : Shape) (extractStridedSlice (⟨2, ![1, 1600000]⟩ : Shape) ![0, 0] E
              Cert.KernelIdeal.Gen.slices_S2x1600000_S1x1600000_0_0) Cert.KernelIdeal.Gen.shapeCasts_S1x1600000_S1600000
              (ix1 (⟨e.val, hlt⟩ : Fin 1600000)) := by
        unfold Cert.KernelIdeal.HostSide.srcIds
        exact concatenate_pair_apply_left (t := ⟨1, ![1700000]⟩) (s₁ := ⟨1, ![1600000]⟩) (s₂ := ⟨1, ![100000]⟩)
          _ _ _ _ (ix1 e) rfl (ix1 (⟨e.val, hlt⟩ : Fin 1600000)) (fun b => match b with | ⟨0, _⟩ => rfl)
      rw [hl, row0_apply]
      exact hE ⟨e.val, hlt⟩
    · -- a self-loop's message: the node's own number
      have hp : e.val - 1600000 < 100000 := by have := e.isLt; omega
      have hl : Cert.KernelIdeal.HostSide.srcIds E (ix1 e) = BitVec.ofNat 32 (e.val - 1600000) := by
        unfold Cert.KernelIdeal.HostSide.srcIds
        exact concatenate_pair_apply_right (t := ⟨1, ![1700000]⟩) (s₁ := ⟨1, ![1600000]⟩) (s₂ := ⟨1, ![100000]⟩)
          _ _ _ _ (ix1 e) rfl rfl (ix1 (⟨e.val - 1600000, hp⟩ : Fin 100000))
          (fun b hb => absurd (Subsingleton.elim _ _) hb)
          (by show (e.val - 1600000) + 1600000 = e.val; omega)
      rw [hl, StableHlo.Predicate.toInt_ofNat_small _ (by omega)]
      omega
  exact wrap_range _ hr.1 hr.2

end Cert.SrcRange

end
-- ==== Proof.LibRowGather.lean ====
/-
  A lookup of table rows by a column of row numbers, `table[ids]`, read at one entry.

  For a table of N rows and D columns and a column of R row numbers (carried as R×1 start indices), the gather
  with offset axis 1, collapsed operand axis 0, start-index map [0], index-vector axis 1 and slice sizes [1, D]
  has at (p, k) the table's entry at row `ids[p]` — read as a signed integer and clamped into [0, N − 1], as every
  start index of a gather is — and column k. Axis 0 of the operand is collapsed, so it carries only the clamped
  start; axis 1 is not in the start-index map, so it carries only the result's offset coordinate k.
-/
import Idealize.ShloMosaic.Lib.ValueIdx

noncomputable section

namespace Cert.LibRowGather

open Idealize.ShloMosaic Idealize.ShloMosaic.ValueIdx

variable {α : Type}

/-- A word read as a signed integer and clamped into the rows 0 … N − 1 of a table. -/
def clampRow (N : Nat) (hN : 0 < N) {w : Nat} (v : BitVec w) : Fin N :=
  ⟨min v.toInt.toNat (N - 1), by omega⟩

/-- Those dimension numbers, for a table [N, D], start indices [R, 1] and a result [R, D]. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE LOOKUP READ AT (p, k): the table at the clamped row number `ids[p, 0]` and column k. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (p : Fin R) (k : Fin D) :
    Host.gather (rowDims N D R wf) x ids (ix2 p k) = x (ix2 (clampRow N hN (ids (ix2 p (0 : Fin 1)))) k) := by
  unfold Host.gather
  congr 1
  funext a
  refine Fin.ext ?_
  match a with
  | ⟨0, _⟩ =>
    show (rowDims N D R wf).start (ix2 p k) ids 0 + (rowDims N D R wf).batchCoord (ix2 p k) 0
        + (rowDims N D R wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 p k) ⟨List.idxOf (0 : Fin 2) (rowDims N D R wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨1, _⟩ =>
    show (rowDims N D R wf).start (ix2 p k) ids 1 + (rowDims N D R wf).batchCoord (ix2 p k) 1
        + (rowDims N D R wf).offCoord (ix2 p k) 1 = k.val
    have hsm : ¬ (1 : Fin 2) ∈ (rowDims N D R wf).startIndexMap :=
      fun h => absurd (congrArg Fin.val (List.mem_singleton.mp h)) Nat.one_ne_zero
    have hk : (1 : Fin 2) ∈ (rowDims N D R wf).sKept :=
      (GatherDims.mem_sKept _ _).mpr ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg hsm, dif_pos hk]
    simp only [Nat.add_zero, Nat.zero_add]
    rfl

end Cert.LibRowGather

end
-- ==== Proof.LibRowIndex.lean ====
/-
  Where a scatter of rows lands, and what a lookup by position reads.

  A scatter of E update rows of width D into an array of N rows, each row sent to the row number its index word
  names (read as a signed integer, not clamped; a row number outside 0 … N − 1 drops the update), lands update
  entry (e, k) on array entry (n, k) only if the e-th index word, read as a signed integer, is n.
  A lookup of a vector of N entries by a column of E positions reads, at p, the vector at the p-th position read
  as a signed integer and clamped into 0 … N − 1; a position that is already a row number is its own clamp; and
  the wrap-around of negative positions (add N where the word is negative) leaves a non-negative word alone.
-/
import Idealize.ShloMosaic.Lib.ValueIdx
import Idealize.ShloMosaic.Lib.StableHlo.Predicate
import proofs.«423162_j11467562680520_3_alg».proof.Proof.LibRowGather

noncomputable section

namespace Cert.RowIndex

open Idealize.ShloMosaic Idealize.ShloMosaic.ValueIdx Cert.LibRowGather

/-- The dimension numbers of a scatter of rows: array [N, D], index column [E, 1], updates [E, D]; the update's
    axis 1 is the window, the array's axis 0 is the scattered one. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update entry that lands on array entry `i` was sent there by its row's index word: that word, read as a signed
    integer, is `i`'s row number. -/
theorem row_of_resultIdx {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N D E wf).resultIdx? j idx = some i) :
    (idx (ix2 (j 0) (0 : Fin 1))).toInt = ((i 0).val : ℤ) := by
  unfold ScatterDims.resultIdx? at h
  split at h
  · rename_i hall
    have hi := Option.some.inj h
    have h0 := hall 0
    -- axis 0 is inserted: it carries no window coordinate
    have hw0 : (rowScatterDims N D E wf).window j 0 = 0 := by
      unfold ScatterDims.window
      rw [dif_neg]
      intro hk
      simp [ScatterDims.sKept, Shape.kept, List.mem_filter] at hk
    -- axis 0 is the one the index word addresses: its start is that word read signed
    have hs0 : (rowScatterDims N D E wf).start j idx 0 = (idx (ix2 (j 0) (0 : Fin 1))).toInt := by
      unfold ScatterDims.start
      rw [dif_pos (show (0 : Fin 2) ∈ (rowScatterDims N D E wf).scatterDimsToOperandDims from List.mem_singleton.mpr rfl)]
      have hsi : (rowScatterDims N D E wf).siIdx j
          ⟨List.idxOf (0 : Fin 2) (rowScatterDims N D E wf).scatterDimsToOperandDims,
            List.idxOf_lt_length_iff.2 (List.mem_singleton.mpr rfl)⟩ = ix2 (j 0) (0 : Fin 1) := by
        funext c; refine Fin.ext ?_
        match c with
        | ⟨0, _⟩ => rfl
        | ⟨1, _⟩ => rfl
      rw [hsi]
      rfl
    have hv : (i 0).val = ((rowScatterDims N D E wf).start j idx 0 + (rowScatterDims N D E wf).window j 0).toNat := by
      rw [← hi]
    rw [hw0, hs0] at h0
    rw [hw0, hs0] at hv
    rw [hv]
    have := h0.1
    omega
  · exact absurd h (by simp)

/-- A word that reads, as a signed integer, a row number is clamped to that row. -/
theorem clampRow_of_toInt {N w : Nat} (hN : 0 < N) (v : BitVec w) (n : Fin N) (h : v.toInt = (n.val : ℤ)) :
    clampRow N hN v = n := by
  refine Fin.ext ?_
  show min v.toInt.toNat (N - 1) = n.val
  have hv : v.toInt.toNat = n.val := by rw [h]; exact Int.toNat_natCast _
  have := n.isLt
  rw [hv]
  omega

/-- jnp's wrap-around of a negative position leaves a non-negative word as it is. -/
theorem wrap_of_nonneg (v c : BitVec 32) (h : 0 ≤ v.toInt) :
    Scalar.select (IntOp.cmpi .slt v 0#32) (IntOp.addi v c) v = v := by
  have hs : v.slt 0#32 = false := by
    unfold BitVec.slt
    rw [BitVec.toInt_zero]
    exact decide_eq_false (by omega)
  show Scalar.select (BitVec.ofBool (v.slt 0#32)) (IntOp.addi v c) v = v
  rw [hs]
  exact select_zero _ _

/-- The lookup of a vector by a column of positions, read at `p`: the vector at the clamped position. -/
theorem take_apply {α : Type} {N E w : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (p : Fin E) :
    Host.gather d x idx (ix1 p) = x (ix1 (clampRow N hN (idx (ix2 p (0 : Fin 1))))) := by
  -- the rank-1 index at p, and row p of the column, written either way
  have h1 : ∀ {n : Nat} (q : Fin n), Shape.Idx.ofFin q = ix1 q := fun q => by
    funext a
    obtain rfl : a = 0 := Subsingleton.elim _ _
    exact Fin.ext rfl
  have h2 : StableHlo.Predicate.ixP p = ix2 p (0 : Fin 1) := by
    funext a
    match a with
    | ⟨0, _⟩ => rfl
    | ⟨1, _⟩ => rfl
  have hg := StableHlo.Predicate.gather_take d hcoll hob hsim hivd x idx p hN
  rw [h1, h1] at hg
  simp only [h2] at hg
  exact hg

end Cert.RowIndex

end
-- ==== Proof.LibColumn.lean ====
/-
  Two layout readings between a vector [a] and a column [a, 1], the inverse directions of the keepdims forms:
  a column [a, 1] cast to a vector [a] (the reshape that drops a kept unit axis), and a vector [a] spread by
  `broadcast_in_dim` along `dims = [0]` into a column [a, 1] (the reshape that adds one, as jax lowers
  `keepdims=True` on the host).
-/
import Idealize.ShloMosaic.Lib.Pipeline.Value
import Idealize.ShloMosaic.Lib.ValueIdx

namespace Cert.LibColumn

open Idealize.ShloMosaic Idealize.ShloMosaic.ValueIdx

variable {α : Type}

/-- A column [a, 1] cast to a vector [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] broadcast along `dims = [0]` into a column [a, 1] reads, at (i, u), the vector's entry i. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

end Cert.LibColumn
-- ==== Proof.HostPoint.lean ====
/-
  The host side of the kernel's program read entry by entry, on the extended reals.

  The degree scale of a node is never negative and never +∞ (an inverse square root of a positive degree, or zero); its
  column and the bias row read the vector they were cast from. A message whose wrapped source id is a row 0 … 99999
  passes the range test, so its looked-up row is the table's row at that id. The aggregation at an entry is the zero it
  starts from plus the sum of the looked-up entries whose message lands there, and a message that lands on a row has
  that row's number as its destination id.
-/
import proofs.«423162_j11467562680520_3_alg».proof.Proof.HostTerms
import proofs.«423162_j11467562680520_3_alg».proof.Proof.LibRowGather
import proofs.«423162_j11467562680520_3_alg».proof.Proof.LibRowIndex
import proofs.«423162_j11467562680520_3_alg».proof.Proof.LibKeepdims
import proofs.«423162_j11467562680520_3_alg».proof.Proof.LibColumn
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate
import Idealize.ShloMosaic.PureOps.Ideal.Laws

set_option maxRecDepth 16384

noncomputable section

open scoped BigOperators

namespace Cert.KernelIdeal.HostPoint

open Cert.KernelIdeal Cert.KernelIdeal.Gen Cert.KernelIdeal.HostSide Cert.LibRowGather
open Idealize.ShloMosaic Idealize.ShloMosaic.ValueIdx

/-- The scale column at row n is the scale vector at n. -/
theorem degScaleCol_apply (dst : IVec S1700000 32) (n : Fin 100000) (u : Fin 1) :
    degScaleCol (F := Ideal) dst (ix2 n u) = degScale (F := Ideal) dst (ix1 n) := by
  unfold degScaleCol
  exact Cert.LibKeepdims.shapeCast_a_a1_apply _ _ n u

/-- The bias row at column q is the bias at q. -/
theorem biasRow_apply (b : FVec Ideal S128 .f32) (u : Fin 1) (q : Fin 128) :
    biasRow (F := Ideal) b (ix2 u q) = b (ix1 q) := by
  unfold biasRow
  exact shapeCast_a_1a_apply _ _ u q

/-- The value the scale takes at a degree d: the inverse square root of d where d is positive, zero elsewhere; never
    negative and never +∞. -/
private theorem scale_val (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases hc : Ideal.cmp .ogt d 0 = 1#1
  · rw [hc, select_one]
    have hd : (0 : EReal) < d := of_decide_eq_true ((StableHlo.Predicate.ofBool_eq_one_iff _).1 hc)
    induction d using EReal.rec with
    | bot => exact absurd hd not_lt_bot
    | coe r =>
      have hr : 0 < r := by exact_mod_cast hd
      rw [Ideal.rsqrt_coe, if_neg (not_lt.mpr hr.le), if_neg hr.ne']
      exact ⟨by exact_mod_cast (inv_nonneg.mpr (Real.sqrt_nonneg r)), EReal.coe_ne_top _⟩
    | top => rw [Ideal.rsqrt_top]; exact ⟨le_refl _, EReal.zero_ne_top⟩
  · rw [eq_zero_of_ne_one hc, select_zero]
    exact ⟨le_refl _, EReal.zero_ne_top⟩

/-- A select of an inverse square root by a compare with z, read at an index. -/
private theorem scaleAt {s : Shape} (d z : FVec Ideal s .f32) (i : s.Idx) :
    select (cmpf .ogt d z) (Host.rsqrt d) z i = Scalar.select (Ideal.cmp .ogt (d i) (z i)) (Ideal.rsqrt (d i)) (z i) := rfl

/-- The degree scale at a node, written on the node's degree. -/
private theorem degScale_eq (dst : IVec S1700000 32) (n : Fin 100000) :
    degScale (F := Ideal) dst (ix1 n)
      = Scalar.select (Ideal.cmp .ogt (degree (F := Ideal) dst (ix1 n)) 0) (Ideal.rsqrt (degree (F := Ideal) dst (ix1 n))) (0 : EReal) := by
  have hz : broadcastInDim S100000 ![] bcast_S_S100000 (constant (F := Ideal) S_ .f32 0x00000000#32) (ix1 n) = (0 : EReal) := by
    rw [StableHlo.Predicate.bcast_scalar _ h_S_, constant_apply, Ideal.ofBits_zero_f32]
  rw [degScale, scaleAt, hz]

/-- The degree scale is never negative. -/
theorem degScale_nonneg (dst : IVec S1700000 32) (n : Fin 100000) : 0 ≤ degScale (F := Ideal) dst (ix1 n) := by
  rw [degScale_eq]
  exact (scale_val _).1

/-- The degree scale is never +∞. -/
theorem degScale_ne_top (dst : IVec S1700000 32) (n : Fin 100000) : degScale (F := Ideal) dst (ix1 n) ≠ ⊤ := by
  rw [degScale_eq]
  exact (scale_val _).2

/-- A fold by `and` from 1 over a list on which every element is 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    show List.foldl (fun r n => IntOp.andi r (f n)) (IntOp.andi 1#1 (f a)) l = 1#1
    rw [h a List.mem_cons_self, show IntOp.andi 1#1 1#1 = 1#1 from by decide]
    exact foldl_andi_one f l (fun n hn => h n (List.mem_cons_of_mem _ hn))

/-- A word between 0 and 99999, read signed, passes both range compares. -/
private theorem range_test (v : BitVec 32) (h : 0 ≤ v.toInt ∧ v.toInt ≤ 99999) :
    IntOp.andi (IntOp.cmpi .sge v 0#32) (IntOp.cmpi .sle v 99999#32) = 1#1 := by
  have h1 : IntOp.cmpi .sge v 0#32 = 1#1 := by
    show BitVec.ofBool ((0#32).sle v) = 1#1
    rw [StableHlo.Predicate.ofBool_eq_one_iff]
    unfold BitVec.sle
    exact decide_eq_true (by rw [BitVec.toInt_zero]; exact h.1)
  have h2 : IntOp.cmpi .sle v 99999#32 = 1#1 := by
    show BitVec.ofBool (v.sle 99999#32) = 1#1
    rw [StableHlo.Predicate.ofBool_eq_one_iff]
    unfold BitVec.sle
    exact decide_eq_true (by rw [StableHlo.Predicate.toInt_ofNat_small 99999 (by norm_num)]; exact h.2)
  rw [h1, h2]
  decide

/-- A message whose wrapped source id is a row passes the range test. -/
theorem inRows_eq_one (src : IVec S1700000 32) (e : Fin 1700000)
    (h : 0 ≤ (wrap src (ix1 e)).toInt ∧ (wrap src (ix1 e)).toInt ≤ 99999) : inRows src (ix1 e) = 1#1 := by
  rw [inRows, Host.reduce_eq_foldl]
  refine foldl_andi_one _ _ fun i hi => ?_
  rw [List.mem_filter] at hi
  have hd : reducesTo_S1700000x1_S1700000_d1.drop i = ix1 e := of_decide_eq_true hi.2
  obtain ⟨a, b, rfl⟩ : ∃ (a : Fin 1700000) (b : Fin 1), i = ix2 a b := ⟨i 0, i 1, eq_ix2 i⟩
  have hae : a = e := Fin.ext (congrArg (fun v => (v 0).val) hd)
  subst hae
  have hc : col (wrap src) (ix2 a b) = wrap src (ix1 a) :=
    Cert.LibColumn.broadcastInDim_a_a1_apply (a := 1700000) (wrap src) bcast_S1700000_S1700000x1_0 a b
  have hk0 : broadcastInDim S1700000x1 ![] bcast_S_S1700000x1 (constantI S_ 32 0#32) (ix2 a b) = 0#32 := rfl
  have hk1 : broadcastInDim S1700000x1 ![0, 1] bcast_S1x1_S1700000x1_0_1
      (broadcastInDim S1x1 ![1] bcast_S1_S1x1_1 (constantI S1 32 99999#32)) (ix2 a b) = 99999#32 := rfl
  show IntOp.andi (IntOp.cmpi .sge (col (wrap src) (ix2 a b)) (broadcastInDim S1700000x1 ![] bcast_S_S1700000x1 (constantI S_ 32 0#32) (ix2 a b)))
      (IntOp.cmpi .sle (col (wrap src) (ix2 a b)) (broadcastInDim S1700000x1 ![0, 1] bcast_S1x1_S1700000x1_0_1
        (broadcastInDim S1x1 ![1] bcast_S1_S1x1_1 (constantI S1 32 99999#32)) (ix2 a b))) = 1#1
  rw [hc, hk0, hk1]
  exact range_test _ h

/-- The lookup at an entry of a message whose wrapped source id is a row: the table's entry in that row. -/
theorem takeRows_apply (h : FVec Ideal S100000x128 .f32) (src : IVec S1700000 32) (e : Fin 1700000) (k : Fin 128)
    (hr : 0 ≤ (wrap src (ix1 e)).toInt ∧ (wrap src (ix1 e)).toInt ≤ 99999) :
    takeRows (F := Ideal) h src (ix2 e k) = h (ix2 (clampRow 100000 (by decide) (wrap src (ix1 e))) k) := by
  have hm : broadcastInDim S1700000x128 ![0] bcast_S1700000_S1700000x128_0 (inRows src) (ix2 e k) = inRows src (ix1 e) := by
    refine broadcastInDim_apply _ _ _ (ix2 e k) (ix1 e) fun ax => ?_
    match ax with
    | ⟨0, _⟩ =>
      show e.val = if (1700000 : ℕ) = 1 then 0 else e.val
      rw [if_neg (by omega)]
  have hc : col (wrap src) (ix2 e (0 : Fin 1)) = wrap src (ix1 e) :=
    Cert.LibColumn.broadcastInDim_a_a1_apply (a := 1700000) (wrap src) bcast_S1700000_S1700000x1_0 e 0
  have hg := gather_row_apply (N := 100000) (D := 128) (R := 1700000) (by decide)
    gather_S100000x128_S1700000x1_S1700000x128_1_0_n_n_0_1_1128_wf h (col (wrap src)) e k
  rw [hc] at hg
  rw [takeRows, select_apply, hm, inRows_eq_one src e hr, select_one]
  exact hg

/-- An accumulating scatter on the extended reals, read at an entry: its start there plus the updates that land there. -/
private theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- The aggregation at an entry: its zero start plus the looked-up entries whose message lands there. -/
theorem aggregate_apply (h : FVec Ideal S100000x128 .f32) (src dst : IVec S1700000 32) (i : S100000x128.Idx) :
    aggregate (F := Ideal) h src dst i = Ideal.ofBits .f32 0x00000000#32
      + ∑ j ∈ Finset.univ.filter (fun j : S1700000x128.Idx => scatter_S100000x128_S1700000x1_S1700000x128_1_0_0_1.resultIdx? j (col dst) = some i),
          takeRows (F := Ideal) h src j := by
  have h0 : (broadcastInDim S100000x128 ![] bcast_S_S100000x128 (constant (F := Ideal) S_ .f32 0x00000000#32)) i = Ideal.ofBits .f32 0x00000000#32 :=
    StableHlo.Predicate.bcast_scalar _ h_S_ _ _
  rw [aggregate, scatterAdd_apply, h0]

/-- A message that lands on an entry of row n has n as its destination id, read as a signed integer. -/
theorem dst_of_lands (dst : IVec S1700000 32) (j : S1700000x128.Idx) (i : S100000x128.Idx)
    (h : scatter_S100000x128_S1700000x1_S1700000x128_1_0_0_1.resultIdx? j (col dst) = some i) :
    (dst (ix1 (⟨(j 0).val, (j 0).isLt⟩ : Fin 1700000))).toInt = ((i 0).val : ℤ) := by
  have h' : (Cert.RowIndex.rowScatterDims 100000 128 1700000 scatter_S100000x128_S1700000x1_S1700000x128_1_0_0_1_wf).resultIdx? j (col dst) = some i := h
  have := Cert.RowIndex.row_of_resultIdx _ (col dst) j i h'
  have hc : col dst (ix2 (j 0) (0 : Fin 1)) = dst (ix1 (⟨(j 0).val, (j 0).isLt⟩ : Fin 1700000)) :=
    Cert.LibColumn.broadcastInDim_a_a1_apply (a := 1700000) dst bcast_S1700000_S1700000x1_0 ⟨(j 0).val, (j 0).isLt⟩ 0
  rw [← hc]
  exact this

end Cert.KernelIdeal.HostPoint

end
-- ==== Proof.LibSumAlgebra.lean ====
/-
  The one algebraic law that joins the two programs.

  On the extended reals a product does not distribute over a sum in general, but a factor that is a non-negative
  real number does: c · (t₁ + … + tₙ) = c · t₁ + … + c · tₙ for 0 ≤ c < ⊤, whatever the terms are. With it, a scale
  that is constant over the terms of a sum may be applied once to the sum or once to every term: the destination's
  degree scale, taken out of the sum over the edges that arrive at one node, against the same scale gathered per
  edge inside the sum. Commuting and regrouping the factors of each term needs nothing of the kind.
-/
import Mathlib.Data.EReal.Operations
import Mathlib.Data.EReal.Inv
import Mathlib.Algebra.BigOperators.Group.Finset.Basic

noncomputable section

namespace Cert.SumAlgebra

open scoped BigOperators

/-- A non-negative real factor distributes over a finite sum of extended reals. -/
theorem mul_sum_of_nonneg {ι : Type*} (s : Finset ι) (c : EReal) (h0 : 0 ≤ c) (ht : c ≠ ⊤) (t : ι → EReal) :
    c * ∑ u ∈ s, t u = ∑ u ∈ s, c * t u := by
  classical
  induction s using Finset.induction_on with
  | empty => simp
  | insert a s ha ih =>
    rw [Finset.sum_insert ha, Finset.sum_insert ha, EReal.left_distrib_of_nonneg_of_ne_top h0 ht, ih]

/-- THE LAW. Over the terms `u` of a finite sum, let `a u` be the edge weight, `dr u` the source's scale, `dc u` the
    destination's scale gathered per edge and `h u` the source's feature. If the gathered destination scale is the one
    number `c` (non-negative, finite) on every term, then scaling the sum of `a · (dr · h)` by `c` is summing
    `((dr · dc) · a) · h`; a zero start of the sum and a bias added at the end ride along. -/
theorem scaled_sum_eq {ι : Type*} (s : Finset ι) (c : EReal) (h0 : 0 ≤ c) (ht : c ≠ ⊤) (a dr dc h : ι → EReal)
    (hdc : ∀ u ∈ s, dc u = c) (b : EReal) :
    c * (0 + ∑ u ∈ s, a u * (dr u * h u)) + b = (0 + ∑ u ∈ s, ((dr u * dc u) * a u) * h u) + b := by
  rw [zero_add, zero_add, mul_sum_of_nonneg s c h0 ht]
  congr 1
  refine Finset.sum_congr rfl fun u hu => ?_
  rw [hdc u hu]
  rw [mul_comm (dr u) c, mul_assoc c (dr u) (a u), mul_assoc c, mul_comm (dr u) (a u), mul_assoc (a u)]

end Cert.SumAlgebra

end
-- ==== Proof.Bridge.lean ====
/-
  The kernel's function and the reference's are one function.

  Write δ for the degree scale, s(e) and d(e) for the wrapped, clamped source and destination rows of message e, and
  P(r, k) = ∑ₖ' x(r, k') · w(k', k). At entry (n, q) the reference sums, over the messages (e, q) that land on row n, the
  terms P(s(e), q) · (δ(s(e)) · δ(d(e))), adds the bias and clips; the kernel sums P(s(e), q) · δ(s(e)) over the same
  messages, scales the sum by δ(n), adds the bias and clips. A message that lands on row n has destination id n, so
  d(e) = n there; and δ(n) is a non-negative real number, so it may be taken out of the sum. Under the precondition
  every wrapped source id is a row, so the kernel's lookup never meets its out-of-range fill.
-/
import proofs.«423162_j11467562680520_3_alg».proof.Proof.RefRead
import proofs.«423162_j11467562680520_3_alg».proof.Proof.HostTerms
import proofs.«423162_j11467562680520_3_alg».proof.Proof.HostPoint
import proofs.«423162_j11467562680520_3_alg».proof.Proof.SrcRange
import proofs.«423162_j11467562680520_3_alg».proof.Proof.Region0
import proofs.«423162_j11467562680520_3_alg».proof.Proof.Region1
import proofs.«423162_j11467562680520_3_alg».proof.Proof.LibSumAlgebra
import proofs.«423162_j11467562680520_3_alg».proof.Proof.LibRowGather
import proofs.«423162_j11467562680520_3_alg».proof.Proof.LibRowIndex
import proofs.«423162_j11467562680520_3_alg».proof.Proof.LibColumn
import Idealize.ShloMosaic.Lib.ValueIdx
import Idealize.ShloMosaic.PureOps.Ideal.Laws

set_option maxRecDepth 16384

noncomputable section

open scoped BigOperators

namespace Cert.Bridge

open Idealize.ShloMosaic Idealize.ShloMosaic.ValueIdx
open Cert.KernelIdeal.HostSide Cert.KernelIdeal.HostPoint Cert.LibRowGather

/-- A float scatter-add read at an entry: what was there plus the updates that land there. -/
theorem scatterAdd_apply {s si su : Shape} {w : Nat} {φ : FTy} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- A non-negative real factor common to the terms of a sum may be applied to the sum instead. -/
theorem scale_out {ι : Type*} (s : Finset ι) (c : EReal) (h0 : 0 ≤ c) (ht : c ≠ ⊤) (f g : ι → EReal)
    (hfg : ∀ u ∈ s, g u = f u * c) (b : EReal) :
    (0 + ∑ u ∈ s, f u) * c + b = (0 + ∑ u ∈ s, g u) + b := by
  rw [zero_add, zero_add, mul_comm, Cert.SumAlgebra.mul_sum_of_nonneg s c h0 ht]
  congr 1
  exact Finset.sum_congr rfl fun u hu => by rw [hfg u hu, mul_comm]

variable (X : FVec Ideal Cert.KernelIdeal.S100000x128 .f32) (E : IVec Cert.KernelIdeal.S2x1600000 32)
  (Wt : FVec Ideal Cert.KernelIdeal.S128x128 .f32) (B : FVec Ideal Cert.KernelIdeal.S128 .f32)

/-- The row message e reads: its wrapped source id, clamped into the rows. -/
abbrev srcRow (e : Fin 1700000) : Fin 100000 := clampRow 100000 (by decide) (wrap (srcIds E) (ix1 e))

/-- The row message e is scaled for in the reference: its wrapped destination id, clamped into the rows. -/
abbrev dstRow (e : Fin 1700000) : Fin 100000 := clampRow 100000 (by decide) (wrap (dstIds E) (ix1 e))

/-- Entry (r, k) of the product of the features and the weights. -/
def prodAt (r : Fin 100000) (k : Fin 128) : EReal := ∑ k' : Fin 128, X (ix2 r k') * Wt (ix2 k' k)

/-- A column of ids read at row e. -/
theorem col_apply (v : IVec Cert.KernelIdeal.S1700000 32) (e : Fin 1700000) (u : Fin 1) : col v (ix2 e u) = v (ix1 e) :=
  Cert.LibColumn.broadcastInDim_a_a1_apply v _ e u

/-- The degree scale looked up by a column of ids, at message e: the scale of the clamped id. -/
theorem scale_lookup (ids : IVec Cert.KernelIdeal.S1700000 32) (e : Fin 1700000) :
    Host.gather Cert.ReferenceIdeal.gather_S100000_S1700000x1_S1700000_n_0_n_n_0_1_1 (degScale (F := Ideal) (dstIds E)) (col ids) (ix1 e)
      = degScale (F := Ideal) (dstIds E) (ix1 (clampRow 100000 (by decide) (ids (ix1 e)))) := by
  rw [Cert.RowIndex.take_apply (by decide : 0 < 100000) Cert.ReferenceIdeal.gather_S100000_S1700000x1_S1700000_n_0_n_n_0_1_1 rfl rfl rfl rfl _ _ e, col_apply]

section Stages

variable {F : FTy → Type} [FloatOps F]

/-- The reference's row lookup is the lookup of its product by the wrapped source ids. -/
theorem ref_rows (X : FVec F Cert.KernelIdeal.S100000x128 .f32) (E : IVec Cert.KernelIdeal.S2x1600000 32)
    (Wt : FVec F Cert.KernelIdeal.S128x128 .f32) :
    Cert.ReferenceIdeal.Read.val_main_v42 (F := F) X E Wt
      = Host.gather (rowDims 100000 128 1700000 Cert.ReferenceIdeal.Gen.gather_S100000x128_S1700000x1_S1700000x128_1_0_n_n_0_1_1128_wf)
          (Cert.ReferenceIdeal.Read.val_main_v0 (F := F) X Wt) (col (wrap (srcIds E))) := rfl

/-- The reference's scale of a message's source: the degree scale looked up by the wrapped source ids. -/
theorem ref_scale_src (E : IVec Cert.KernelIdeal.S2x1600000 32) :
    Cert.ReferenceIdeal.Read.val_main_v27 (F := F) E
      = Host.gather Cert.ReferenceIdeal.gather_S100000_S1700000x1_S1700000_n_0_n_n_0_1_1 (degScale (F := F) (dstIds E)) (col (wrap (srcIds E))) := rfl

/-- The reference's scale of a message's destination: the degree scale looked up by the wrapped destination ids. -/
theorem ref_scale_dst (E : IVec Cert.KernelIdeal.S2x1600000 32) :
    Cert.ReferenceIdeal.Read.val_main_v34 (F := F) E
      = Host.gather Cert.ReferenceIdeal.gather_S100000_S1700000x1_S1700000_n_0_n_n_0_1_1 (degScale (F := F) (dstIds E)) (col (wrap (dstIds E))) := rfl

/-- The reference's aggregation: its per-message terms added, from zeros, into the rows the destination ids name. -/
theorem ref_agg (X : FVec F Cert.KernelIdeal.S100000x128 .f32) (E : IVec Cert.KernelIdeal.S2x1600000 32)
    (Wt : FVec F Cert.KernelIdeal.S128x128 .f32) :
    Cert.ReferenceIdeal.Read.val_main_v48 (F := F) X E Wt
      = Host.scatterAdd (F := F) Cert.KernelIdeal.scatter_S100000x128_S1700000x1_S1700000x128_1_0_0_1 (Cert.ReferenceIdeal.Read.val_main_v46 (F := F))
          (col (dstIds E)) (Cert.ReferenceIdeal.Read.val_main_v45 (F := F) X E Wt) := rfl

end Stages

/-- The second stage at an entry. -/
theorem scaleBiasClip_apply (s : Cert.KernelIdeal.S100000x128.Idx → EReal) (d : Cert.KernelIdeal.S100000x1.Idx → EReal)
    (b : Cert.KernelIdeal.S1x128.Idx → EReal) (i : Cert.KernelIdeal.S100000x128.Idx) :
    Cert.KernelIdeal.Epilogue.scaleBiasClip s d b i
      = max (s i * d (ix2 (⟨(i 0).val, (i 0).isLt⟩ : Fin 100000) (0 : Fin 1))
          + b (ix2 (0 : Fin 1) (⟨(i 1).val, (i 1).isLt⟩ : Fin 128))) (Ideal.ofBits .f32 0x00000000#32) := rfl

/-- The bias spread over the rows: entry (n, q) reads position q. -/
theorem bias_idx (i : Cert.KernelIdeal.S100000x128.Idx) :
    Cert.ReferenceIdeal.Read.idx_main_v49 (Cert.ReferenceIdeal.Read.idx_main_v50 i) = ix1 (⟨(i 1).val, (i 1).isLt⟩ : Fin 128) :=
  funext fun a => by match a with | ⟨0, _⟩ => rfl

/-- The per-message scale is spread along the row: entry (e, k) reads position e. -/
theorem spread_idx (e : Fin 1700000) (k : Fin 128) :
    Cert.ReferenceIdeal.Read.idx_main_v43 (Cert.ReferenceIdeal.Read.idx_main_v44 (ix2 e k)) = ix1 e :=
  funext fun a => by match a with | ⟨0, _⟩ => rfl

/-- The product's two operand entries at output (r, k) and contraction coordinate k₁: (r, k₁) and (k₁, k). -/
theorem lidx_eq (r : Fin 100000) (k k1 : Fin 128) : Cert.ReferenceIdeal.Read.lidx_main_v0 (ix2 r k) k1 = ix2 r k1 :=
  funext fun a => by match a with | ⟨0, _⟩ => rfl | ⟨1, _⟩ => rfl
theorem ridx_eq (r : Fin 100000) (k k1 : Fin 128) : Cert.ReferenceIdeal.Read.ridx_main_v0 (ix2 r k) k1 = ix2 k1 k :=
  funext fun a => by match a with | ⟨0, _⟩ => rfl | ⟨1, _⟩ => rfl

/-- THE REFERENCE'S TERM of message (e, k): the product's entry in the source row, times the two scales. -/
theorem ref_term (e : Fin 1700000) (k : Fin 128) :
    Cert.ReferenceIdeal.Read.val_main_v45 (F := Ideal) X E Wt (ix2 e k)
      = prodAt X Wt (srcRow E e) k * (degScale (F := Ideal) (dstIds E) (ix1 (srcRow E e)) * degScale (F := Ideal) (dstIds E) (ix1 (dstRow E e))) := by
  rw [Cert.ReferenceIdeal.Read.val_main_v45_apply, Cert.ReferenceIdeal.Read.val_main_v44_apply,
    Cert.ReferenceIdeal.Read.val_main_v43_apply, Cert.ReferenceIdeal.Read.val_main_v35_apply, spread_idx,
    ref_rows, ref_scale_src, ref_scale_dst,
    gather_row_apply (by decide : 0 < 100000), col_apply, scale_lookup, scale_lookup,
    Cert.ReferenceIdeal.Read.val_main_v0_apply]
  simp only [Ideal.mulf_def, lidx_eq, ridx_eq]
  rfl

/-- THE KERNEL'S TERM of message (e, k), when its wrapped source id is a row: the scaled product's entry there. -/
theorem ker_term (e : Fin 1700000) (k : Fin 128)
    (hr : 0 ≤ (wrap (srcIds E) (ix1 e)).toInt ∧ (wrap (srcIds E) (ix1 e)).toInt ≤ 99999) :
    takeRows (F := Ideal) (Cert.KernelIdeal.Transform.matScale X Wt (degScaleCol (F := Ideal) (dstIds E))) (srcIds E) (ix2 e k)
      = prodAt X Wt (srcRow E e) k * degScale (F := Ideal) (dstIds E) (ix1 (srcRow E e)) := by
  rw [takeRows_apply _ _ e k hr]
  show prodAt X Wt (srcRow E e) k * degScaleCol (F := Ideal) (dstIds E) (ix2 (srcRow E e) (0 : Fin 1)) = _
  rw [degScaleCol_apply]

/-- A message that lands on an entry of row n is scaled, in the reference, for row n: its destination id is n, which the
    wrap and the clamp leave alone. -/
theorem dstRow_of_lands (j : Cert.KernelIdeal.S1700000x128.Idx) (i : Cert.KernelIdeal.S100000x128.Idx)
    (h : Cert.KernelIdeal.scatter_S100000x128_S1700000x1_S1700000x128_1_0_0_1.resultIdx? j (col (dstIds E)) = some i) :
    dstRow E (⟨(j 0).val, (j 0).isLt⟩ : Fin 1700000) = (⟨(i 0).val, (i 0).isLt⟩ : Fin 100000) := by
  have ht := dst_of_lands (dstIds E) j i h
  have hw : wrap (dstIds E) (ix1 (⟨(j 0).val, (j 0).isLt⟩ : Fin 1700000)) = dstIds E (ix1 (⟨(j 0).val, (j 0).isLt⟩ : Fin 1700000)) :=
    Cert.RowIndex.wrap_of_nonneg _ _ (by rw [ht]; exact Int.natCast_nonneg _)
  show clampRow 100000 _ (wrap (dstIds E) (ix1 (⟨(j 0).val, (j 0).isLt⟩ : Fin 1700000))) = _
  rw [hw]
  exact Cert.RowIndex.clampRow_of_toInt (by decide) _ (⟨(i 0).val, (i 0).isLt⟩ : Fin 100000) ht

/-- THE TWO PROGRAMS' RESULTS ARE ONE FUNCTION of the argument arrays, when every source entry of the edge array lies
    in −100000 … 99999. -/
theorem kernel_eq_ref
    (hE : ∀ e : Fin 1600000, -100000 ≤ (E (ix2 (0 : Fin 2) e)).toInt ∧ (E (ix2 (0 : Fin 2) e)).toInt < 100000) :
    Cert.KernelIdeal.Epilogue.scaleBiasClip
        (aggregate (F := Ideal) (Cert.KernelIdeal.Transform.matScale X Wt (degScaleCol (F := Ideal) (dstIds E))) (srcIds E) (dstIds E))
        (degScaleCol (F := Ideal) (dstIds E)) (biasRow (F := Ideal) B)
      = Cert.ReferenceIdeal.Read.val_main_v52 (F := Ideal) X E Wt B := by
  funext i
  have hrows := Cert.SrcRange.wrapped_src_in_rows E hE
  -- the kernel's entry
  rw [scaleBiasClip_apply, aggregate_apply, degScaleCol_apply, biasRow_apply]
  -- the reference's entry
  rw [Cert.ReferenceIdeal.Read.val_main_v52_apply, Cert.ReferenceIdeal.Read.val_main_v51_apply,
    Cert.ReferenceIdeal.Read.val_main_v50_apply, Cert.ReferenceIdeal.Read.val_main_v49_apply, bias_idx,
    Cert.ReferenceIdeal.Read.val_main_call1_v0_apply, Cert.ReferenceIdeal.Read.val_main_call1_cst_apply,
    ref_agg, scatterAdd_apply, Cert.ReferenceIdeal.Read.val_main_v46_apply, Cert.ReferenceIdeal.Read.val_main_cst_10_apply]
  simp only [Ideal.maximumf_def, Ideal.addf_def, Ideal.ofBits_def, Ideal.ofBits_zero_f32]
  refine congrArg (fun t : EReal => max t 0) ?_
  refine scale_out _ _ (degScale_nonneg (dstIds E) _) (degScale_ne_top (dstIds E) _) _ _ (fun j hj => ?_) _
  have hl := (Finset.mem_filter.mp hj).2
  obtain ⟨e, k, rfl⟩ : ∃ (e : Fin 1700000) (k : Fin 128), j = ix2 e k := ⟨j 0, j 1, eq_ix2 j⟩
  rw [ref_term, ker_term X E Wt e k (hrows e), dstRow_of_lands E (ix2 e k) i hl, mul_assoc]

end Cert.Bridge

end
-- ==== Proof.lean ====
/-
  A graph-convolution layer, fused differently, equals its reference on the extended reals.

  Both programs compute, for every node n and feature q,
      out(n, q) = max (∑ over messages e with destination n of P(s(e), q) · δ(s(e)) · δ(n) + b(q), 0),
  where the messages are the edges with one self-loop per node appended, s(e) is a message's source, P = x · w is the
  product of the features and the weights, and δ is the inverse square root of a node's degree (zero where the degree
  is not positive). The reference forms δ(s(e)) · δ(d(e)) per message, scales the looked-up row of P by it, and adds the
  rows into their destinations. The kernel scales the rows of P by δ inside its first launch, looks the scaled rows up,
  adds them into their destinations, and applies the destination's δ(n) once per node inside its second launch, together
  with the bias and the clip. The two agree because δ(n) is a non-negative real number — such a factor, and no other, may
  be moved across a sum of extended reals — and because a message that is added into row n has destination n.
  The kernel's lookup fills a row whose source id is not a row of the table; the reference's clamps such an id. So the
  two are compared where every source id, after the wrap of negative ids, is a row: that is the statement's
  precondition on the edge array, beside the finiteness of the float inputs (which this proof does not use).

  The three frame claims: the two kernel programs' by their launch-and-flush certificates; the reference's by its run.
  The idealized kernel is the kernel's own text read on the extended reals: no rewrite to account for.
-/
import proofs.«423162_j11467562680520_3_alg».proof.Defs
import proofs.«423162_j11467562680520_3_alg».proof.Proof.Gen.Kernel.Frame
import proofs.«423162_j11467562680520_3_alg».proof.Proof.Gen.KernelIdeal.Frame
import proofs.«423162_j11467562680520_3_alg».proof.Proof.Gen.ReferenceIdeal
import proofs.«423162_j11467562680520_3_alg».proof.Proof.Gen.Pre_finite_inputs
import proofs.«423162_j11467562680520_3_alg».proof.Proof.RefRun
import proofs.«423162_j11467562680520_3_alg».proof.Proof.RefRead
import proofs.«423162_j11467562680520_3_alg».proof.Proof.KernelRun
import proofs.«423162_j11467562680520_3_alg».proof.Proof.HostRead1
import proofs.«423162_j11467562680520_3_alg».proof.Proof.SrcRange
import proofs.«423162_j11467562680520_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the reference's function of the arguments in
    their result arrays: the kernel's run ends at the scaled, biased, clipped aggregation, which is that function
    where the edge array's source ids are in range; the reference's run ends at it by construction. -/
theorem algebraic : Cert.algebraic_KernelIdeal_ReferenceIdeal := by
  intro m ρ m' ρ' hpre hagree
  refine ⟨fun c => Cert.ReferenceIdeal.Read.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.RunResult.run_result m ρ)
    rw [Cert.KernelIdeal.HostRead.result_eq]
    exact Cert.Bridge.kernel_eq_ref _ _ _ _ (fun e => Cert.SrcRange.pre_src_range _ _ _ _ (hpre c) e)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
